-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x2048 .f32) (main_arg1 : IVec S32768 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_c_0 : IVec S_ 32 := constantI S_ 32 0#32
  let main_v4 : IVec S32768 32 := broadcastInDim S32768 ![] bcast_S_S32768 main_c_0
  let main_v5 : IVec S32768 1 := cmpi .sge main_arg1 main_v4
  let main_c_1 : IVec S_ 32 := constantI S_ 32 2048#32
  let main_v6 : IVec S32768 32 := broadcastInDim S32768 ![] bcast_S_S32768 main_c_1
  let main_v7 : IVec S32768 1 := cmpi .slt main_arg1 main_v6
  let main_v8 : IVec S32768 1 := andi main_v5 main_v7
  let main_c_2 : IVec S_ 1 := constantI S_ 1 1#1
  let main_v9 : IVec S_ 1 := (fun x v => Host.reduce IntOp.andi x v reducesTo_S32768_S_d0 h_S_) main_v8 main_c_2
  let main_v10 : IVec S_ 1 := andi main_v3 main_v9
  main_v10
-- ==== Kernel.lean ====
abbrev S32768x2048 : Shape := ⟨2, ![32768, 2048]⟩
abbrev S32768 : Shape := ⟨1, ![32768]⟩
abbrev S32768x1 : Shape := ⟨2, ![32768, 1]⟩
abbrev S2048x2048 : Shape := ⟨2, ![2048, 2048]⟩
abbrev S2048x1 : Shape := ⟨2, ![2048, 1]⟩
abbrev S2048 : Shape := ⟨1, ![2048]⟩
abbrev S1x2048 : Shape := ⟨2, ![1, 2048]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S32768x1, .i32⟩
  | .hbm, ⟨3, _⟩ => ⟨S32768x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S2048x1, .i32⟩
  | .local _ .vmem, ⟨3, _⟩ => ⟨S2048x1, .i32⟩
  | .local _ .vmem, ⟨4, _⟩ => ⟨S2048x1, .f32⟩
  | .local _ .vmem, ⟨5, _⟩ => ⟨S2048x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768_S32768x1 : S32768.ShapeCasts S32768x1
  inb_S2048x2048_S2048x2048_0_0 : ∀ a, (![0, 0] : Fin 2 → Nat) a + S2048x2048.size a ≤ S2048x2048.size a
  h_S2048x2048 : 0 < S2048x2048.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x2048_S2048 : S2048x2048.Reduces [1] S2048
  shapeCasts_S2048_S2048x1 : S2048.ShapeCasts S2048x1
  iota_S1x2048_d1_w32 : S1x2048.Iotas .tc 32 [1]
  broadcasts_S1x2048_S2048x2048 : S1x2048.Broadcasts S2048x2048
  broadcasts_S2048x1_S2048x2048 : S2048x1.Broadcasts S2048x2048
  slices_S2048x2048_o0_0_S2048x1 : S2048x2048.Slices ![0, 0] S2048x1
  reducesTo_S32768x1_S_d0_1 : S32768x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S32768x2048.size a
  hwx0_0 : ∀ i : grid0.Coords, EltTy.bits .f32 = 32 ∨ (Rect.block (s := S32768x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .f32 = 32 ∨ (Rect.block (s := S32768x1) S2048x1.size (cc0_transform_2 i) (hinb0_2 i)).WholeWords (EltTy.packing .f32)

variable [Facts₀]

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768 : Shape := ⟨1, ![32768]⟩
abbrev S2048 : Shape := ⟨1, ![2048]⟩
abbrev S_ : Shape := ⟨0, ![]⟩
abbrev S32768x1 : Shape := ⟨2, ![32768, 1]⟩
abbrev S1x2048 : Shape := ⟨2, ![1, 2048]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S2048, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S32768x1, .i1⟩
  | .hbm, ⟨7, _⟩ => ⟨S1x2048, .i32⟩
  | .hbm, ⟨8, _⟩ => ⟨S_, .i32⟩
  | .hbm, ⟨9, _⟩ => ⟨S1x2048, .i32⟩
  | .hbm, ⟨10, _⟩ => ⟨S1x2048, .i1⟩
  | .hbm, ⟨11, _⟩ => ⟨S1x2048, .i32⟩
  | .hbm, ⟨12, _⟩ => ⟨S_, .i32⟩
  | .hbm, ⟨13, _⟩ => ⟨S1x2048, .i32⟩
  | .hbm, ⟨14, _⟩ => ⟨S1x2048, .i1⟩
  | .hbm, ⟨15, _⟩ => ⟨S32768x2048, .i1⟩
  | .hbm, ⟨16, _⟩ => ⟨S32768x2048, .i1⟩
  | .hbm, ⟨17, _⟩ => ⟨S32768x2048, .i1⟩
  | .hbm, ⟨18, _⟩ => ⟨S32768x2048, .i1⟩
  | .hbm, ⟨19, _⟩ => ⟨S32768x2048, .f32⟩
  | .hbm, ⟨20, _⟩ => ⟨S_, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768, .f32⟩
  | .hbm, ⟨26, _⟩ => ⟨S32768x1, .i32⟩
  | .hbm, ⟨27, _⟩ => ⟨S_, .i32⟩
  | .hbm, ⟨28, _⟩ => ⟨S32768x1, .i32⟩
  | .hbm, ⟨29, _⟩ => ⟨S32768x1, .i1⟩
  | .hbm, ⟨30, _⟩ => ⟨S_, .i32⟩
  | .hbm, ⟨31, _⟩ => ⟨S32768x1, .i32⟩
  | .hbm, ⟨32, _⟩ => ⟨S32768x1, .i32⟩
  | .hbm, ⟨33, _⟩ => ⟨S32768x1, .i32⟩
  | .hbm, ⟨34, _⟩ => ⟨S32768x1x1, .i32⟩
  | .hbm, ⟨35, _⟩ => ⟨S1, .i32⟩
  | .hbm, ⟨36, _⟩ => ⟨S_, .i32⟩
  | .hbm, ⟨37, _⟩ => ⟨S32768x1x1, .i32⟩
  | .hbm, ⟨38, _⟩ => ⟨S32768x1x1, .i1⟩
  | .hbm, ⟨39, _⟩ => ⟨S1x1x1, .i32⟩
  | .hbm, ⟨40, _⟩ => ⟨S32768x1x1, .i32⟩
  | .hbm, ⟨41, _⟩ => ⟨S32768x1x1, .i1⟩
  | .hbm, ⟨42, _⟩ => ⟨S32768x1x1, .i1⟩
  | .hbm, ⟨43, _⟩ => ⟨S_, .i1⟩
  | .hbm, ⟨44, _⟩ => ⟨S32768x1, .i1⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768, .f32⟩
  | .hbm, ⟨50, _⟩ => ⟨S32768, .f32⟩
  | .hbm, ⟨51, _⟩ => ⟨S32768, .f32⟩
  | .hbm, ⟨52, _⟩ => ⟨S32768, .f32⟩
  | .hbm, ⟨53, _⟩ => ⟨S32768, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  reducesTo_S32768x2048_S32768_d1 : S32768x2048.ReducesTo [1] S32768
  h_S_ : 0 < S_.numel
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  reducesTo_S32768_S_d0 : S32768.ReducesTo [0] S_
  gather_S32768x2048_S32768x1x1_S32768x1_n_1_0_0_1_2_11_wf : GatherDims.WF S32768x2048 S32768x1x1 S32768x1 [] [1] [0] [1] [0] 2 ![1, 1]

variable [Facts₀]

def gather_S32768x2048_S32768x1x1_S32768x1_n_1_0_0_1_2_11 : GatherDims S32768x2048 S32768x1x1 S32768x1 where
  offsetDims := []
  collapsedSliceDims := [1]
  operandBatchingDims := [0]
  startIndicesBatchingDims := [0]
  startIndexMap := [1]
  indexVectorDim := 2
  sliceSizes := ![1, 1]
  wf := gather_S32768x2048_S32768x1x1_S32768x1_n_1_0_0_1_2_11_wf

class Facts : Prop extends Facts₀ where

variable [Facts]
-- ==== Proof.RowLoss.lean ====
/-
  What both programs compute, as one function of the argument arrays, and the two laws of finite sums that join them.

  For a row of logits `x b · : Fin 2048 → EReal` with target class `T = t b`, the loss of the row is
    log (∑ₖ exp (x b k)) − x b T              when T = 0,
    log (exp (x b 0) + exp (x b T)) − x b T   otherwise,
  and the result is the mean of the 32768 row losses: their sum, from the zero the sum starts at, over 32768.
  One side reaches the first line as "the sum of the exponentials over every class but 0, plus the exponential at class 0";
  one side reaches x b T as the sum over the classes of "x b k where k = T, else 0": both are regroupings of a finite sum in
  a commutative monoid, so they hold on the extended reals with no finiteness needed.
-/
import Idealize.ShloMosaic.PureOps.Ideal.Laws
import Idealize.ShloMosaic.Lib.ValueIdx

noncomputable section

open scoped BigOperators

namespace Cert.RowLoss

open Idealize.ShloMosaic Idealize.ShloMosaic.ValueIdx

/-! ## The class a target word names -/

/-- The class a 32-bit target word names among the 2048 classes: its unsigned value, reduced mod 2048 so that the
    definition is total; for a word below 2048 it is the word's value (`col_val`). -/
def col (w : BitVec 32) : Fin 2048 := ⟨w.toNat % 2048, Nat.mod_lt _ (by decide)⟩

theorem col_val {w : BitVec 32} (h : w.toNat < 2048) : (col w).val = w.toNat := Nat.mod_eq_of_lt h

/-- The zero word names class 0. -/
theorem col_zero : col 0#32 = 0 := rfl

/-- The word of a class position equals an in-range target word exactly at the class the word names. -/
theorem ofNat_eq_iff {w : BitVec 32} (h : w.toNat < 2048) (k : Fin 2048) : BitVec.ofNat 32 k.val = w ↔ k = col w := by
  constructor
  · intro e
    apply Fin.ext
    rw [col_val h, ← e, BitVec.toNat_ofNat]
    have := k.isLt
    omega
  · intro e
    apply BitVec.eq_of_toNat_eq
    rw [BitVec.toNat_ofNat, e, col_val h]
    omega

/-- The word of a class position is the zero word exactly at class 0. -/
theorem ofNat_eq_zero_iff (k : Fin 2048) : BitVec.ofNat 32 k.val = 0#32 ↔ k = 0 := by
  have := ofNat_eq_iff (w := 0#32) (by decide) k
  rwa [col_zero] at this

/-- A one-bit word made from a Boolean is `1` only for `true`. -/
theorem ofBool_one {c : Bool} (h : BitVec.ofBool c = 1#1) : c = true := by
  cases c
  · exact absurd h (by decide)
  · rfl

/-- A target word that is signed-nonnegative and signed-below 2048 has unsigned value below 2048. -/
theorem toNat_lt_of_signed {w : BitVec 32} (h0 : IntOp.cmpi .sge w 0#32 = 1#1) (h1 : IntOp.cmpi .slt w 2048#32 = 1#1) :
    w.toNat < 2048 := by
  have e0 : (0#32).sle w = true := ofBool_one h0
  have e1 : w.slt 2048#32 = true := ofBool_one h1
  simp only [BitVec.sle, BitVec.slt, decide_eq_true_eq] at e0 e1
  have z : (0#32).toInt = 0 := by decide
  have z' : (2048#32).toInt = 2048 := by decide
  rw [z] at e0; rw [z'] at e1
  rw [BitVec.toInt_eq_msb_cond] at e0 e1
  have hw := w.isLt
  by_cases hm : w.msb = true
  · rw [if_pos hm] at e0; omega
  · rw [if_neg hm] at e0 e1; omega

/-! ## One row's loss, and the mean -/

/-- The loss of one row of logits `r` whose target word is `T`: with `col T` the class the word names,
    `log (∑ₖ exp rₖ) − r_T` when the word is zero (then the class is 0), else `log (exp r₀ + exp r_T) − r_T`. -/
def lossOf (r : Fin 2048 → EReal) (T : BitVec 32) : EReal :=
  if T = 0#32 then Ideal.log (∑ k : Fin 2048, Ideal.exp (r k)) - r (col T)
  else Ideal.log (Ideal.exp (r 0) + Ideal.exp (r (col T))) - r (col T)

/-- The loss of row `b` of the logits `x` under the targets `t`. -/
def rowLoss (x : (⟨2, ![32768, 2048]⟩ : Shape).Idx → EReal) (t : (⟨1, ![32768]⟩ : Shape).Idx → BitVec 32) (b : Fin 32768) : EReal :=
  lossOf (fun k => x (ix2 b k)) (t (ix1 b))

/-- The mean of the row losses as both programs take it: the sum over the rows, started at the f32 zero, divided by
    the f32 word of 32768. -/
def meanLoss (x : (⟨2, ![32768, 2048]⟩ : Shape).Idx → EReal) (t : (⟨1, ![32768]⟩ : Shape).Idx → BitVec 32) : EReal :=
  Ideal.div (Ideal.ofBits .f32 0x00000000#32 + ∑ b : Fin 32768, rowLoss x t b) (Ideal.ofBits .f32 0x47000000#32)

/-! ## The two laws of finite sums -/

/-- Summing "`f k` at the one position `T`, zero elsewhere" gives `f T`. -/
theorem sum_at {ι : Type} [Fintype ι] [DecidableEq ι] (f : ι → EReal) (T : ι) :
    ∑ k, (if k = T then f k else 0) = f T := by
  rw [Finset.sum_ite_eq' Finset.univ T f, if_pos (Finset.mem_univ T)]

/-- Summing `f` over every position but `z` and then adding `f z` gives the whole sum. -/
theorem sum_off_add {ι : Type} [Fintype ι] [DecidableEq ι] (f : ι → EReal) (z : ι) :
    (∑ k, (if k = z then 0 else f k)) + f z = ∑ k, f k := by
  have h : ∀ k, f k = (if k = z then 0 else f k) + (if k = z then f k else 0) := by
    intro k; by_cases hk : k = z
    · rw [if_pos hk, if_pos hk, zero_add]
    · rw [if_neg hk, if_neg hk, add_zero]
  conv_rhs => rw [Finset.sum_congr rfl (fun k _ => h k)]
  rw [Finset.sum_add_distrib, sum_at]

end Cert.RowLoss

end
-- ==== Proof.LibTakeAlongAxis.lean ====
/-
  jnp.take_along_axis(x, idx[:, None], axis=1) of a [B, C] table by one start index per row, read at a row, for any sizes.

  It prints as a `stablehlo.gather` whose start indices are the rows' positions as a [B, 1, 1] array, with row axis 0 a
  BATCHING axis of operand and indices alike, column axis 1 collapsed and start-indexed, no offset axes, the index vector
  on axis 2 and slice sizes [1, 1]; the result is the [B, 1] column. Row `b` of the result is the table's row `b` at that
  row's start index read SIGNED and CLAMPED into [0, C − 1] (StableHLO clamps every start index so that the slice fits).
-/
import Idealize.ShloMosaic.Lib.ValueIdx

noncomputable section

namespace Cert.LibTakeAlongAxis

open Idealize.ShloMosaic Idealize.ShloMosaic.ValueIdx

/-- The printed dimension numbers, for a table [B, C], start indices [B, 1, 1] and result [B, 1]; their conditions `wf`
    are decided on a program's literal shapes. -/
abbrev alongDims (B C : Nat) (wf : GatherDims.WF ⟨2, ![B, C]⟩ ⟨3, ![B, 1, 1]⟩ ⟨2, ![B, 1]⟩ [] [1] [0] [1] [0] 2 ![1, 1]) :
    GatherDims ⟨2, ![B, C]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW `b`: the table at row `b` and at the column the row's start index names, read signed and
    clamped into [0, C − 1]. On the batching axis the operand coordinate is the result's row; on the collapsed axis it is
    the clamped start. -/
theorem gather_along_apply {α : Type} {B C w : Nat} (hC : 0 < C)
    (wf : GatherDims.WF ⟨2, ![B, C]⟩ ⟨3, ![B, 1, 1]⟩ ⟨2, ![B, 1]⟩ [] [1] [0] [1] [0] 2 ![1, 1])
    (x : (⟨2, ![B, C]⟩ : Shape).Idx → α) (idx : IVec ⟨3, ![B, 1, 1]⟩ w) (b : Fin B) :
    Host.gather (alongDims B C wf) x idx (ix2 b (0 : Fin 1))
      = x (ix2 b ⟨min (idx (ix3 b (0 : Fin 1) (0 : Fin 1))).toInt.toNat (C - 1), by omega⟩) := by
  unfold Host.gather
  congr 1
  funext a
  refine Fin.ext ?_
  match a with
  | ⟨0, _⟩ =>
    show (alongDims B C wf).start (ix2 b (0 : Fin 1)) idx 0 + (alongDims B C wf).batchCoord (ix2 b (0 : Fin 1)) 0
        + (alongDims B C wf).offCoord (ix2 b (0 : Fin 1)) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show (alongDims B C wf).start (ix2 b (0 : Fin 1)) idx 1 + (alongDims B C wf).batchCoord (ix2 b (0 : Fin 1)) 1
        + (alongDims B C wf).offCoord (ix2 b (0 : Fin 1)) 1 = min (idx (ix3 b (0 : Fin 1) (0 : Fin 1))).toInt.toNat (C - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims B C wf).startIndexMap from List.mem_singleton.mpr rfl)]
    have hsi : (alongDims B C wf).siIdx (ix2 b (0 : Fin 1)) ⟨List.idxOf (1 : Fin 2) (alongDims B C wf).startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

end Cert.LibTakeAlongAxis

end
-- ==== Proof.RefRow.lean ====
/-
  The reference's run, read row by row: under in-range targets its result is the mean of the row losses.
-/
import proofs.«403057_j8761733284104_2_alg».proof.Proof.RefRead
import proofs.«403057_j8761733284104_2_alg».proof.Proof.RowLoss
import proofs.«403057_j8761733284104_2_alg».proof.Proof.LibTakeAlongAxis
import Idealize.ShloMosaic.Lib.StableHlo.Predicate
import Idealize.ShloMosaic.Lib.ReduceAll

noncomputable section

open scoped BigOperators

namespace Cert.RefRow

open Idealize.ShloMosaic Idealize.ShloMosaic.ValueIdx Cert.ReferenceIdeal Cert.ReferenceIdeal.Gen Cert.ReferenceIdeal.ReadP Cert.RowLoss

/-! ## Words -/

/-- A signed "not equal" of two words is the bit 1 exactly when the words differ. -/
theorem cmpi_ne_one_iff {w : Nat} {a b : BitVec w} : IntOp.cmpi .ne a b = 1#1 ↔ a ≠ b := by
  simp only [IntOp.cmpi, StableHlo.Predicate.ofBool_eq_one_iff, bne_iff_ne]

/-- A left fold by `and` from 1 over one-bit words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- Every index of the [32768, 1, 1] array is a row with two zero coordinates. -/
theorem exists_ix3 (i : S32768x1x1.Idx) : ∃ b : Fin 32768, i = ix3 b (0 : Fin 1) (0 : Fin 1) := by
  refine ⟨i 0, ?_⟩
  have e := eq_ix3 i
  have h1 : i 1 = (0 : Fin 1) := Subsingleton.elim (α := Fin 1) _ _
  have h2 : i 2 = (0 : Fin 1) := Subsingleton.elim (α := Fin 1) _ _
  rw [h1, h2] at e
  exact e

/-- Every index of the [32768, 1] array is a row with a zero coordinate. -/
theorem exists_ix2 (i : S32768x1.Idx) : ∃ b : Fin 32768, i = ix2 b (0 : Fin 1) := by
  refine ⟨i 0, ?_⟩
  have e := eq_ix2 i
  have h1 : i 1 = (0 : Fin 1) := Subsingleton.elim (α := Fin 1) _ _
  rw [h1] at e
  exact e

/-! ## The index functions at coordinates -/

theorem idx_v14 (b : Fin 32768) : idx_main_v14 (ix2 b (0 : Fin 1)) = ix1 b :=
  funext fun a => Fin.ext (by match a with | ⟨0, _⟩ => rfl)

theorem idx_c2v5 (b : Fin 32768) : idx_main_call2_v5 (ix3 b (0 : Fin 1) (0 : Fin 1)) = ix2 b (0 : Fin 1) :=
  funext fun a => Fin.ext (by
    match a with
    | ⟨0, _⟩ => show ((b.val * 1 + 0) * 1 + 0) / 1 = b.val; omega
    | ⟨1, _⟩ => rfl)

theorem idx_v16 (b : Fin 32768) : idx_main_v16 (ix1 b) = ix2 b (0 : Fin 1) :=
  funext fun a => Fin.ext (by
    match a with
    | ⟨0, _⟩ => show b.val / 1 = b.val; omega
    | ⟨1, _⟩ => rfl)

theorem idx_v13 (b : Fin 32768) (k : Fin 2048) : idx_main_v13 (ix1 b) k = ix2 b k :=
  funext fun a => Fin.ext (by match a with | ⟨0, _⟩ => rfl | ⟨1, _⟩ => rfl)

/-! ## The index word of a row -/

/-- The broadcast targets at row `b`. -/
theorem v14_at (x1 : (⟨S32768, .i32⟩ : BufTy).Contents (Elt Ideal)) (b : Fin 32768) :
    val_main_v14 (F := Ideal) x1 (ix2 b (0 : Fin 1)) = x1 (ix1 b) := by
  rw [val_main_v14_apply, idx_v14]

/-- An in-range target is not wrapped: the start index word of row `b` is the target word. -/
theorem c2v5_at (x1 : (⟨S32768, .i32⟩ : BufTy).Contents (Elt Ideal)) (b : Fin 32768)
    (hT : (x1 (ix1 b) : BitVec 32).toNat < 2048) :
    val_main_call2_v5 (F := Ideal) x1 (ix3 b (0 : Fin 1) (0 : Fin 1)) = x1 (ix1 b) := by
  rw [val_main_call2_v5_apply, idx_c2v5, val_main_call2_v4_apply, val_main_call2_v1_apply, v14_at,
    val_main_call2_v0_apply, val_main_call2_c_apply]
  have hlt : ¬ IntOp.cmpi .slt (x1 (ix1 b) : BitVec 32) 0#32 = 1#1 := by
    rw [StableHlo.Predicate.slt_iff_toNat (by omega) (by decide)]
    exact Nat.not_lt_zero _
  rw [eq_zero_of_ne_one hlt, select_zero]

/-- An in-range target is in bounds: the bit "0 ≤ start index ≤ 2047" of row `b` is 1. -/
theorem c2v11_at (x1 : (⟨S32768, .i32⟩ : BufTy).Contents (Elt Ideal)) (b : Fin 32768)
    (hT : (x1 (ix1 b) : BitVec 32).toNat < 2048) :
    val_main_call2_v11 (F := Ideal) x1 (ix3 b (0 : Fin 1) (0 : Fin 1)) = 1#1 := by
  rw [val_main_call2_v11_apply, val_main_call2_v7_apply, val_main_call2_v10_apply, c2v5_at x1 b hT,
    val_main_call2_v6_apply, val_main_call2_c_2_apply, val_main_call2_v9_apply, val_main_call2_v8_apply,
    val_main_call2_c_1_apply]
  have h7 : IntOp.cmpi .sge (x1 (ix1 b) : BitVec 32) 0#32 = 1#1 := by
    rw [StableHlo.Predicate.sge_iff_toNat (by omega) (by decide)]
    exact Nat.zero_le _
  have h10 : IntOp.cmpi .sle (x1 (ix1 b) : BitVec 32) 2047#32 = 1#1 := by
    rw [StableHlo.Predicate.sle_iff_toNat (by omega) (by decide)]
    show _ ≤ 2047
    omega
  rw [h7, h10]
  rfl

/-- Under in-range targets the in-bounds mask, the `and` over the size-one axis, is 1 at every row. -/
theorem c2v12_at (x1 : (⟨S32768, .i32⟩ : BufTy).Contents (Elt Ideal))
    (h : ∀ i : S32768.Idx, (x1 i : BitVec 32).toNat < 2048) (j : S32768x1.Idx) :
    val_main_call2_v12 (F := Ideal) x1 j = 1#1 := by
  unfold val_main_call2_v12
  have hall : ∀ i, val_main_call2_v11 (F := Ideal) x1 i = 1#1 := by
    intro i
    obtain ⟨b, rfl⟩ := exists_ix3 i
    exact c2v11_at x1 b (h _)
  generalize val_main_call2_v11 (F := Ideal) x1 = y at hall
  rw [Host.reduce_eq_foldl]
  exact foldl_andi_one y hall _

/-- The gathered logit of row `b`: the logit at the class the row's target names. -/
theorem v16_at (x0 : (⟨S32768x2048, .f32⟩ : BufTy).Contents (Elt Ideal)) (x1 : (⟨S32768, .i32⟩ : BufTy).Contents (Elt Ideal))
    (h : ∀ i : S32768.Idx, (x1 i : BitVec 32).toNat < 2048) (b : Fin 32768) :
    val_main_v16 (F := Ideal) x0 x1 (ix1 b) = x0 (ix2 b (col (x1 (ix1 b)))) := by
  have hT := h (ix1 b)
  rw [val_main_v16_apply, idx_v16, val_main_v15_apply, c2v12_at x1 h, select_one]
  unfold val_main_call2_v13
  show Host.gather (Cert.LibTakeAlongAxis.alongDims 32768 2048 _) x0 (val_main_call2_v5 (F := Ideal) x1) (ix2 b (0 : Fin 1)) = _
  rw [Cert.LibTakeAlongAxis.gather_along_apply (by decide)]
  refine congrArg x0 (congrArg (ix2 b) (Fin.ext ?_))
  show min (val_main_call2_v5 (F := Ideal) x1 (ix3 b (0 : Fin 1) (0 : Fin 1))).toInt.toNat (2048 - 1) = (col (x1 (ix1 b))).val
  rw [c2v5_at x1 b hT, col_val hT, StableHlo.Predicate.toInt_eq_toNat_of_lt (by omega), Int.toNat_natCast]
  omega

/-! ## The masked sum of a row -/

theorem idx_v3 (b : Fin 32768) (k : Fin 2048) : idx_main_v3 (idx_main_call0_v0 (ix2 b k)) = ix1 b :=
  funext fun a => Fin.ext (by match a with | ⟨0, _⟩ => rfl)

/-- The negative mask at row `b`, class `k`: for a zero target every class but 0, otherwise class 0 only. -/
theorem v10_at (x1 : (⟨S32768, .i32⟩ : BufTy).Contents (Elt Ideal)) (b : Fin 32768) (k : Fin 2048) :
    val_main_v10 (F := Ideal) x1 (ix2 b k)
      = Scalar.select (IntOp.cmpi .ne (x1 (ix1 b) : BitVec 32) 0#32)
          (IntOp.cmpi .eq (BitVec.ofNat 32 k.val) 0#32) (IntOp.cmpi .ne (BitVec.ofNat 32 k.val) 0#32) := by
  rw [val_main_v10_apply, val_main_call0_v0_apply, val_main_v3_apply, val_main_v2_apply, val_main_v1_apply,
    val_main_c_apply, val_main_call0_v1_apply, val_main_v6_apply, val_main_v4_apply, val_main_v0_apply,
    val_main_v5_apply, val_main_c_0_apply, val_main_call0_v2_apply, val_main_v9_apply, val_main_v7_apply,
    val_main_v0_apply, val_main_v8_apply, val_main_c_1_apply, idx_v3]

/-- The masked exponential at row `b`, class `k`. -/
theorem v12_at (x0 : (⟨S32768x2048, .f32⟩ : BufTy).Contents (Elt Ideal)) (x1 : (⟨S32768, .i32⟩ : BufTy).Contents (Elt Ideal))
    (b : Fin 32768) (k : Fin 2048) :
    val_main_v12 (F := Ideal) x0 x1 (ix2 b k)
      = if (x1 (ix1 b) : BitVec 32) = 0#32 then (if k = 0 then 0 else Ideal.exp (x0 (ix2 b k)))
        else (if k = 0 then Ideal.exp (x0 (ix2 b k)) else 0) := by
  rw [val_main_v12_apply, v10_at, val_main_v11_apply, val_main_call1_v1_apply, val_main_call1_v0_apply,
    val_main_cst_apply, Ideal.hostUnary_exp_def, Ideal.ofBits_def, Ideal.ofBits_zero_f32]
  by_cases hT : (x1 (ix1 b) : BitVec 32) = 0#32
  · rw [if_pos hT, eq_zero_of_ne_one (fun e => cmpi_ne_one_iff.1 e hT), select_zero]
    by_cases hk : k = 0
    · rw [if_pos hk, eq_zero_of_ne_one (fun e => cmpi_ne_one_iff.1 e ((ofNat_eq_zero_iff k).2 hk)), select_zero]
    · rw [if_neg hk, cmpi_ne_one_iff.2 (fun e => hk ((ofNat_eq_zero_iff k).1 e)), select_one]
  · rw [if_neg hT, cmpi_ne_one_iff.2 hT, select_one]
    by_cases hk : k = 0
    · rw [if_pos hk, StableHlo.Predicate.cmpi_eq_iff.2 ((ofNat_eq_zero_iff k).2 hk), select_one]
    · rw [if_neg hk, eq_zero_of_ne_one (fun e => hk ((ofNat_eq_zero_iff k).1 (StableHlo.Predicate.cmpi_eq_iff.1 e))), select_zero]

/-- The masked sum of row `b`: every exponential but class 0's for a zero target, otherwise class 0's alone. -/
theorem v13_at (x0 : (⟨S32768x2048, .f32⟩ : BufTy).Contents (Elt Ideal)) (x1 : (⟨S32768, .i32⟩ : BufTy).Contents (Elt Ideal))
    (b : Fin 32768) :
    val_main_v13 (F := Ideal) x0 x1 (ix1 b)
      = if (x1 (ix1 b) : BitVec 32) = 0#32 then ∑ k : Fin 2048, (if k = 0 then 0 else Ideal.exp (x0 (ix2 b k)))
        else Ideal.exp (x0 (ix2 b 0)) := by
  rw [val_main_v13_apply, val_main_cst_2_apply, Ideal.ofBits_def, Ideal.ofBits_zero_f32, zero_add]
  by_cases hT : (x1 (ix1 b) : BitVec 32) = 0#32
  · rw [if_pos hT]
    refine Finset.sum_congr rfl fun k _ => ?_
    rw [idx_v13, v12_at, if_pos hT]
  · rw [if_neg hT, ← sum_at (fun k : Fin 2048 => Ideal.exp (x0 (ix2 b k))) 0]
    refine Finset.sum_congr rfl fun k _ => ?_
    rw [idx_v13, v12_at, if_neg hT]

/-! ## The row, and the result -/

/-- The loss stage at row `b` is the row's loss. -/
theorem v20_at (x0 : (⟨S32768x2048, .f32⟩ : BufTy).Contents (Elt Ideal)) (x1 : (⟨S32768, .i32⟩ : BufTy).Contents (Elt Ideal))
    (h : ∀ i : S32768.Idx, (x1 i : BitVec 32).toNat < 2048) (b : Fin 32768) :
    val_main_v20 (F := Ideal) x0 x1 (ix1 b) = rowLoss x0 x1 b := by
  rw [val_main_v20_apply, val_main_v19_apply, val_main_v18_apply, val_main_v17_apply, v16_at x0 x1 h b, v13_at,
    Ideal.subf_def, Ideal.hostUnary_log_def, Ideal.addf_def, Ideal.hostUnary_exp_def]
  unfold rowLoss lossOf
  by_cases hT : (x1 (ix1 b) : BitVec 32) = 0#32
  · rw [if_pos hT, if_pos hT, hT, col_zero, sum_off_add (fun k : Fin 2048 => Ideal.exp (x0 (ix2 b k))) 0]
  · rw [if_neg hT, if_neg hT]

/-- The rows of the [32768] array are its indices. -/
def rowEquiv : Fin 32768 ≃ S32768.Idx where
  toFun b := ix1 b
  invFun j := j 0
  left_inv _ := rfl
  right_inv j := (eq_ix1 j).symm

/-- THE REFERENCE'S RESULT: for targets that all lie below 2048, the reference's last stage is, at its one index, the
    mean of the row losses. -/
theorem ref_result (x0 : (⟨S32768x2048, .f32⟩ : BufTy).Contents (Elt Ideal)) (x1 : (⟨S32768, .i32⟩ : BufTy).Contents (Elt Ideal))
    (h : ∀ i : S32768.Idx, (x1 i : BitVec 32).toNat < 2048) :
    val_main_v22 (F := Ideal) x0 x1 = fun _ => meanLoss x0 x1 := by
  funext i
  rw [val_main_v22_apply, val_main_v21_apply, val_main_cst_3_apply, val_main_cst_4_apply, Ideal.hostDivf_def,
    Ideal.ofBits_def, Ideal.ofBits_def]
  unfold meanLoss
  refine congrArg (fun s => Ideal.div (Ideal.ofBits .f32 0x00000000#32 + s) (Ideal.ofBits .f32 0x47000000#32)) ?_
  exact (Fintype.sum_equiv rowEquiv (fun b => rowLoss x0 x1 b) (fun j => val_main_v20 (F := Ideal) x0 x1 j)
    (fun b => (v20_at x0 x1 h b).symm)).symm

end Cert.RefRow

end
-- ==== Proof.KernelBlocks.lean ====
/-
  The arrays the region finds and the blocks its points fetch, as rows of the launched arrays.

  The region has 16 points; point t fetches rows 2048·t … 2048·t + 2047 of the logits and of the targets column (the
  targets reshaped to [32768, 1] by the one line before the region). So row p of a point's logits block is row
  2048·t + p of the logits, and row p of its targets block is target 2048·t + p.
-/
import proofs.«403057_j8761733284104_2_alg».proof.Proof.Gen.KernelIdeal.Frame
import proofs.«403057_j8761733284104_2_alg».proof.Proof.RowLoss
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open scoped BigOperators

namespace Cert.KernelBlocks

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.RowLoss

variable (m : (ℓ : Loc nD τ sig) → Buf (Elt Ideal) ℓ) (ρ : Dev nD → PrngReg)

/-- The logits as launched on core `c`. -/
abbrev logits (c : Dev nD) : S32768x2048.Idx → EReal := m ((c : Thread nD τ).loc main_arg0)
/-- The targets as launched on core `c`. -/
abbrev targets (c : Dev nD) : S32768.Idx → BitVec 32 := m ((c : Thread nD τ).loc main_arg1)

/-- The column of row losses. -/
def lossCol (c : Dev nD) : S32768x1.Idx → EReal := fun i => rowLoss (logits m c) (targets m c) (i 0)

theorem hz : (![0, 0] : Fin 2 → Nat) = fun _ => 0 := funext fun a => by fin_cases a <;> rfl

/-! ## The arrays the region finds -/

/-- The targets column the region finds is the launched targets reshaped: row `b` of the column is target `b`. -/
theorem V_targets (c : Dev nD) :
    (V m c main_v0 : S32768x1.Idx → BitVec 32) = shapeCast S32768x1 (targets m c) Gen.shapeCasts_S32768_S32768x1 := by
  show StableHlo.after hostOps0 (fun b => m (c, b)) (Proc.devRef .tc main_v0) = _
  after_results
  rfl

theorem V_targets_apply (c : Dev nD) (b : Fin 32768) :
    (V m c main_v0 : S32768x1.Idx → BitVec 32) (ix2 b (0 : Fin 1)) = targets m c (ix1 b) := by
  rw [V_targets]
  exact shapeCast_apply _ Gen.shapeCasts_S32768_S32768x1 (ix2 b (0 : Fin 1)) (ix1 b)
    (by rewrite [Shape.rowMajor_val_one, Shape.rowMajor_val_two]; show b.val = b.val * 1 + 0; omega)

/-! ## The blocks -/

/-- The printed index maps over the grid: point `t` takes block row `t`, block column 0, of each window. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 16 := lt_of_lt_of_eq (show t.val < grid0.N from t.isLt) N_0

/-- Row `p`, column `q` of the logits block at point `t` is row 2048·t + p, column `q` of the logits. -/
theorem logits_blk (c : Dev nD) (t : Fin cfg0.N) (p q : Fin 2048) :
    (iblk m c 0 t : Vec Ideal S2048x2048 .f32) (ix2 p q)
      = logits m c (ix2 (⟨t.val * 2048 + p.val, by have := t_lt t; have := p.isLt; omega⟩ : Fin 32768) q) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 2048 + 1 * q.val = q.val; rw [e1]; omega

/-- Row `p` of the targets block at point `t` is target 2048·t + p. -/
theorem targets_blk (c : Dev nD) (t : Fin cfg0.N) (p : Fin 2048) :
    (iblk m c 1 t : Vec Ideal S2048x1 .i32) (ix2 p (0 : Fin 1))
      = targets m c (ix1 (⟨t.val * 2048 + p.val, by have := t_lt t; have := p.isLt; omega⟩ : Fin 32768)) := by
  obtain ⟨-, -, e2, e3, -⟩ := idx_facts t
  rw [← V_targets_apply]
  unfold iblk
  rw [View.read_apply]
  show V m c main_v0 _ = V m c main_v0 _
  refine congrArg _ (funext fun a => Fin.ext ?_)
  match a with
  | ⟨0, _⟩ => show win0_1.index t (0 : Fin 2) * 2048 + 1 * p.val = t.val * 2048 + p.val; rw [e2]; omega
  | ⟨1, _⟩ => show win0_1.index t (1 : Fin 2) * 1 + 1 * 0 = 0; rw [e3]

end Cert.KernelBlocks

end
-- ==== Proof.KernelRow.lean ====
/-
  The kernel body's stored value at a row of its block: the loss of that row of the logits block under that row's target.

  The body computes, for each row p of a [2048, 2048] block of logits v0 with target word T = v1 (p, 0):
    the row sum  S = ∑ₖ exp v0[p, k];
    the one-hot pick  x_T = ∑ₖ (v0[p, k] where the word of class k equals T, else 0);
    the value  log S − x_T  when T = 0,  log (exp v0[p, 0] + exp x_T) − x_T  otherwise.
  For T below 2048 the word of class k equals T exactly at k = col T, so x_T = v0[p, col T] and the value is the row's loss.
  Every operation but the two sums reads its operand at one index; each such reading is one small lemma below.
-/
import proofs.«403057_j8761733284104_2_alg».proof.Proof.Gen.KernelIdeal.Skeleton
import proofs.«403057_j8761733284104_2_alg».proof.Proof.RowLoss
import Idealize.ShloMosaic.Lib.ValueLayout
import Idealize.ShloMosaic.Lib.StableHlo.Predicate

noncomputable section

open scoped BigOperators

namespace Cert.KernelRow

open Idealize.ShloMosaic Idealize.ShloMosaic.ValueIdx Cert.KernelIdeal Cert.KernelIdeal.Gen Cert.RowLoss

/-! ## Layout operations of the body read at an index given by coordinates -/

section Layout
variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The class positions along the lanes: the iota over the one row of 2048 classes reads, at (0, q), the word of q. -/
theorem iota_lane_apply (h : S1x2048.Iotas .tc 32 [1]) (u : Fin 1) (q : Fin 2048) :
    iota .tc S1x2048 32 [1] h (ix2 u q) = BitVec.ofNat 32 q.val :=
  iota_single_apply .tc S1x2048 32 1 h (ix2 u q)

/-- A row sum: the sum over axis 1 of a [2048, 2048] block, at row p, is the sum over the classes of the block's row p. -/
theorem rowSum_apply (src : FVec Ideal S2048x2048 .f32) (h : S2048x2048.Reduces [1] S2048) (hφ : FKind.Formats .f32)
    (hacc : (0x00000000#32 : BitVec 32) = 0x00000000#32) (p : Fin 2048) :
    multiReduction .add [1] S2048 src 0x00000000#32 h hφ hacc (ix1 p) = ∑ k : Fin 2048, src (ix2 p k) := by
  refine (Ideal.multiReduction_add_single src 0x00000000#32 h hφ hacc (ix1 p)).trans ?_
  refine Finset.sum_congr rfl fun k _ => congrArg src ?_
  funext ax
  match ax with
  | ⟨0, _⟩ => rfl
  | ⟨1, _⟩ => rfl

/-! ## Pointwise operations of the body read at an index -/

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

theorem cmpi_apply {s : Shape} {w : ℕ} (c : CmpIPredicate) (x y : IVec s w) (i : s.Idx) :
    cmpi c x y i = IntOp.cmpi c (x i) (y i) := rfl

/-! ## The body's three non-pointwise readings at a row -/

/-- The one-hot mask at (p, q): the bit "the word of class q equals the target of row p". -/
theorem mask_apply (t : IVec S2048x1 32) (hi : S1x2048.Iotas .tc 32 [1]) (hb : S1x2048.Broadcasts S2048x2048)
    (hc : S2048x1.Broadcasts S2048x2048) (p q : Fin 2048) :
    cmpi .eq (broadcastTo S2048x2048 (iota .tc S1x2048 32 [1] hi) hb) (broadcastTo S2048x2048 t hc) (ix2 p q)
      = IntOp.cmpi .eq (BitVec.ofNat 32 q.val) (t (ix2 p (0 : Fin 1))) := by
  rw [cmpi_apply, broadcastTo_1b_ab_apply, broadcastTo_a1_ab_apply, iota_lane_apply]

/-- The one-hot pick at row p: summing over the classes "the logit where the class's word equals the target, else zero"
    gives the logit at the class the target names, for a target below 2048. -/
theorem pick_apply (x : FVec Ideal S2048x2048 .f32) (t : IVec S2048x1 32) (hi : S1x2048.Iotas .tc 32 [1])
    (hb : S1x2048.Broadcasts S2048x2048) (hc : S2048x1.Broadcasts S2048x2048) (hr : S2048x2048.Reduces [1] S2048)
    (hφ : FKind.Formats .f32) (hacc : (0x00000000#32 : BitVec 32) = 0x00000000#32) (hs : S2048.ShapeCasts S2048x1)
    (p : Fin 2048) (h : (t (ix2 p (0 : Fin 1))).toNat < 2048) :
    shapeCast S2048x1
        (multiReduction .add [1] S2048
          (select (cmpi .eq (broadcastTo S2048x2048 (iota .tc S1x2048 32 [1] hi) hb) (broadcastTo S2048x2048 t hc)) x
            (broadcast S2048x2048 (FloatOps.ofBits .f32 0x00000000#32)))
          0x00000000#32 hr hφ hacc) hs (ix2 p (0 : Fin 1))
      = x (ix2 p (col (t (ix2 p (0 : Fin 1))))) := by
  rw [shapeCast_a_a1_apply, rowSum_apply]
  refine (Finset.sum_congr rfl fun k _ => ?_).trans (sum_at (fun k => x (ix2 p k)) (col (t (ix2 p (0 : Fin 1)))))
  rw [select_apply, mask_apply, broadcast_apply]
  by_cases hk : k = col (t (ix2 p (0 : Fin 1)))
  · rw [if_pos hk, StableHlo.Predicate.cmpi_eq_iff.2 ((ofNat_eq_iff h k).2 hk), select_one]
  · rw [if_neg hk, eq_zero_of_ne_one fun e => hk ((ofNat_eq_iff h k).1 (StableHlo.Predicate.cmpi_eq_iff.1 e)), select_zero,
      Ideal.ofBits_def, Ideal.ofBits_zero_f32]

/-- The row sum of the exponentials, as the column the body keeps it in. -/
theorem expSum_apply (x : FVec Ideal S2048x2048 .f32) (hr : S2048x2048.Reduces [1] S2048) (hφ : FKind.Formats .f32)
    (hacc : (0x00000000#32 : BitVec 32) = 0x00000000#32) (hs : S2048.ShapeCasts S2048x1) (p : Fin 2048) :
    shapeCast S2048x1 (multiReduction .add [1] S2048 (exp x) 0x00000000#32 hr hφ hacc) hs (ix2 p (0 : Fin 1))
      = ∑ k : Fin 2048, Ideal.exp (x (ix2 p k)) := by
  rw [shapeCast_a_a1_apply, rowSum_apply]
  rfl

/-- Column 0 of the exponentials at row p. -/
theorem expCol0_apply (x : FVec Ideal S2048x2048 .f32) (hsl : S2048x2048.Slices ![0, 0] S2048x1) (p : Fin 2048) :
    extractStridedSlice S2048x1 ![0, 0] (exp x) hsl (ix2 p (0 : Fin 1)) = Ideal.exp (x (ix2 p (0 : Fin 2048))) :=
  slice2_axis1_apply 0 (exp x) hsl p (0 : Fin 1) (0 : Fin 2048) rfl

/-- THE PAYLOAD AT A ROW: for a logits block `v0` and a targets column `v1` whose entry at row `p` lies below 2048, the
    value the body stores at row `p` is the loss of row `p` of `v0` under that target. -/
theorem pay_apply (v0 : Vec Ideal S2048x2048 .f32) (v1 : Vec Ideal S2048x1 .i32) (p : Fin 2048)
    (h : (v1 (ix2 p (0 : Fin 1)) : BitVec 32).toNat < 2048) :
    k0_pay1 (F := Ideal) v0 v1 (ix2 p (0 : Fin 1)) = lossOf (fun k => v0 (ix2 p k)) (v1 (ix2 p (0 : Fin 1))) := by
  unfold k0_pay1
  dsimp only
  rw [shapeCast_self v1 shapeCasts_S2048x1_S2048x1]
  rw [select_apply, cmpi_apply, broadcast_apply, subf_apply, subf_apply, log_apply, log_apply, addf_apply, exp_apply,
    expSum_apply, pick_apply v0 v1 _ _ _ _ _ _ _ p h, expCol0_apply]
  unfold lossOf
  by_cases hT : v1 (ix2 p (0 : Fin 1)) = 0#32
  · rw [if_pos hT, StableHlo.Predicate.cmpi_eq_iff.2 hT, select_one]
  · rw [if_neg hT, eq_zero_of_ne_one fun e => hT (StableHlo.Predicate.cmpi_eq_iff.1 e), select_zero]

end Cert.KernelRow

end
-- ==== Proof.KernelArray.lean ====
/-
  The kernel's run read back as values: the [32768, 1] array the region writes holds each row's loss, and the lines of the
  program after the region turn that column into the mean of the losses.

  Row p of what the body stores at point t is the loss of row p of its logits block under row p of its targets block, that
  is the loss of row 2048·t + p of the arrays; the 16 blocks tile the column, so after the region the column is
  "row b ↦ the loss of row b". The lines after the region add the column up from the f32 zero and divide by the f32 word
  of 32768: the mean. All of it under the one hypothesis that every target, read unsigned, lies below 2048.
-/
import proofs.«403057_j8761733284104_2_alg».proof.Proof.KernelBlocks
import proofs.«403057_j8761733284104_2_alg».proof.Proof.KernelRow

set_option maxRecDepth 16384

noncomputable section

open scoped BigOperators

namespace Cert.KernelArray

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.RowLoss Cert.KernelBlocks Cert.KernelRow

variable (m : (ℓ : Loc nD τ sig) → Buf (Elt Ideal) ℓ) (ρ : Dev nD → PrngReg)

/-! ## What a point writes back -/

/-- For a logits block and a targets block that are rows 2048·t … of arrays `X`, `Tg` with in-range targets, row `y` of
    what the body stores is the loss of row 2048·t + y of the arrays. -/
theorem stored_row (X : S32768x2048.Idx → EReal) (Tg : S32768.Idx → BitVec 32) (hT : ∀ i, (Tg i).toNat < 2048)
    (x0 : Vec Ideal S2048x2048 .f32) (x1 : Vec Ideal S2048x1 .i32) (t : Nat) (ht : t < 16)
    (h0 : ∀ p q : Fin 2048, x0 (ix2 p q) = X (ix2 (⟨t * 2048 + p.val, by have := p.isLt; omega⟩ : Fin 32768) q))
    (h1 : ∀ p : Fin 2048, (x1 (ix2 p (0 : Fin 1)) : BitVec 32) = Tg (ix1 (⟨t * 2048 + p.val, by have := p.isLt; omega⟩ : Fin 32768)))
    (y : S2048x1.Idx) :
    k0_pay1 (F := Ideal) x0 x1 y = rowLoss X Tg (⟨t * 2048 + (y 0).val, by have := idx2_lt0 y; omega⟩ : Fin 32768) := by
  obtain ⟨p, q, rfl⟩ : ∃ (p : Fin 2048) (q : Fin 1), y = ix2 p q := ⟨y 0, y 1, eq_ix2 y⟩
  obtain rfl : q = 0 := Subsingleton.elim _ _
  rw [pay_apply x0 x1 p (by rw [h1]; exact hT _), h1]
  exact congrArg (fun f => lossOf f _) (funext fun k => h0 p k)

/-- WHAT POINT `t` WRITES BACK is block `t` of the column of row losses. -/
theorem flushed_eq (c : Dev nD) (hT : ∀ i, (targets m c i).toNat < 2048) (t : Fin cfg0.N) :
    (dats m 0 c).flushed 2 t = ((cfg0.win 2).blk t).view.read (Elt Ideal) (lossCol m c) := by
  obtain ⟨-, -, -, -, e4, e5⟩ := idx_facts t
  show (cfg0.win 2).cut (grid0.coords t) ((dats m 0 c).after 2 t) = _
  rw [after0_2]
  unfold out0_2
  rw [View.canon_unit_zero hz]
  simp only [View.ld_unit_zero (S := S2048x2048) hz, View.ld_unit_zero (S := S2048x1) hz]
  funext y
  show k0_pay1 (F := Ideal) (iblk m c 0 t) (iblk m c 1 t) y = lossCol m c (((cfg0.win 2).blk t).view.emb y)
  refine (stored_row (logits m c) (targets m c) hT (iblk m c 0 t) (iblk m c 1 t) t.val (t_lt t)
    (logits_blk m c t) (targets_blk m c t) y).trans ?_
  unfold lossCol
  refine congrArg (rowLoss (logits m c) (targets m c)) (Fin.ext ?_)
  show t.val * 2048 + (y 0).val = win0_2.index t (0 : Fin 2) * 2048 + 1 * (y 0).val
  rw [e4]; omega

/-! ## The blocks tile the column -/

/-- An index of the column is in point `t`'s block iff each coordinate is in the block's range on its axis. -/
theorem mem_blk (t : Fin cfg0.N) (i : S32768x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v1).slice (win0_2.rect t)).set ↔ _
  rw [View.set_slice_whole, Rect.mem_set_unit]
  exact Iff.rfl

/-- Row `b` of the column lies in the block of point `b / 2048`. -/
theorem cover (i : S32768x1.Idx) : ∃ t : Fin cfg0.N, (cfg0.win 2).flush t = true ∧ i ∈ ((cfg0.win 2).blk t).view.set := by
  have hi0 : (i 0).val < 32768 := idx2_lt0 i
  have hi1 : (i 1).val < 1 := idx2_lt1 i
  refine ⟨⟨(i 0).val / 2048, lt_of_lt_of_eq (show (i 0).val / 2048 < 16 by omega) N_0.symm⟩, flush0_2 _, ?_⟩
  obtain ⟨-, -, -, -, e4, e5⟩ := idx_facts ⟨(i 0).val / 2048, lt_of_lt_of_eq (show (i 0).val / 2048 < 16 by omega) N_0.symm⟩
  rw [mem_blk]
  intro a
  match a with
  | ⟨0, _⟩ =>
    show win0_2.index _ (0 : Fin 2) * 2048 ≤ (i 0).val ∧ (i 0).val < win0_2.index _ (0 : Fin 2) * 2048 + 2048
    rw [e4]; show (i 0).val / 2048 * 2048 ≤ (i 0).val ∧ (i 0).val < (i 0).val / 2048 * 2048 + 2048; omega
  | ⟨1, _⟩ =>
    show win0_2.index _ (1 : Fin 2) * 1 ≤ (i 1).val ∧ (i 1).val < win0_2.index _ (1 : Fin 2) * 1 + 1
    rw [e5]; omega

/-- THE COLUMN after the region: row `b` holds the loss of row `b`. -/
theorem final (c : Dev nD) (hT : ∀ i, (targets m c i).toNat < 2048) : (dats m 0 c).arrAt 2 cfg0.N = lossCol m c :=
  (dats m 0 c).arrAt_eq_of_cover 2 (lossCol m c) (fun t _ => flushed_eq m c hT t) (fun i => cover i)

/-! ## The lines after the region -/

/-- The sum of the column over its [32768, 1] index set is the sum of the row losses over the rows. -/
theorem sum_lossCol (c : Dev nD) : ∑ i : S32768x1.Idx, lossCol m c i = ∑ b : Fin 32768, rowLoss (logits m c) (targets m c) b := by
  rw [sum_idx2]
  refine Finset.sum_congr rfl fun b _ => ?_
  rw [Fin.sum_univ_one]
  rfl

/-- What the program's last buffer holds after the lines that follow the region: the mean of the row losses. -/
theorem tail_eq (c : Dev nD) (hT : ∀ i, (targets m c i).toNat < 2048) :
    (Pipeline.afterTail₀ cfgs (dats m) 0 (V0 m) [hostOps1] c main_v3 : S_.Idx → EReal)
      = fun _ => meanLoss (logits m c) (targets m c) := by
  unfold Pipeline.afterTail₀
  show StableHlo.after hostOps1 _ (Proc.devRef .tc main_v3) = _
  after_results
  have e : (Pipeline.withArrays (cfgs 0).spec c (V0 m c) (fun w => (dats m 0 c).arrAt w (cfgs 0).N) (Proc.tc.devRef main_v1)
      : S32768x1.Idx → EReal) = lossCol m c :=
    (Pipeline.withArrays_arr spec0 launch0.win.arr_inj c _ _ 2).trans (final m c hT)
  rw [e]
  funext j
  have hs : Host.reduceAdd (F := Ideal) (lossCol m c) (constant S_ .f32 0x00000000#32) Gen.reducesTo_S32768x1_S_d0_1 Gen.h_S_ j
      = Ideal.ofBits .f32 0x00000000#32 + ∑ i : S32768x1.Idx, lossCol m c i := by
    simp only [Host.reduceAdd, Ideal.hostReduceAdd_def]
    exact Ideal.hostReduceAdd_total Gen.reducesTo_S32768x1_S_d0_1 (fun b => b.elim0) (lossCol m c) _ j
  show Ideal.div (Host.reduceAdd (F := Ideal) (lossCol m c) (constant S_ .f32 0x00000000#32) Gen.reducesTo_S32768x1_S_d0_1 Gen.h_S_ j)
      (Ideal.ofBits .f32 0x47000000#32) = meanLoss (logits m c) (targets m c)
  rw [hs, sum_lossCol]
  rfl

/-! ## The run, read -/

/-- The frame run re-posted: from any memory whose targets all lie below 2048, every weakly fair execution ends with the
    result buffer at the mean of the row losses and the two arguments unchanged. -/
theorem run (hT : ∀ (c : Dev nD) (i : S32768.Idx), (targets m c i).toNat < 2048) :
    θ_run defs (onTc (τ := τ) (main (F := Ideal))) ⟨m, fun _ => 0, ρ⟩ fun r => ∀ c : Dev nD,
      r.2.mem ((c.tc : Thread nD τ).loc main_v3) = (fun _ => meanLoss (logits m c) (targets m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c (hT c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelArray

end
-- ==== Proof.TargetsInRange.lean ====
/-
  What the precondition says of the targets: every target word, read unsigned, lies below 2048.

  The printed precondition is the conjunction of two `jnp.all`s: "every logit is finite" and "every target t satisfies
  0 ≤ t (signed) and t < 2048 (signed)". Only the second is used: a word that is signed-nonnegative and signed-below 2048
  has unsigned value below 2048, so it names a class position, and nothing in the bridge needs the logits finite.
-/
import proofs.«403057_j8761733284104_2_alg».proof.Pre_finite_inputs
import proofs.«403057_j8761733284104_2_alg».proof.Proof.RowLoss
import Idealize.ShloMosaic.Lib.ReduceAll
import Idealize.ShloMosaic.Lib.Affine

noncomputable section

namespace Cert.TargetsInRange

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- From the printed precondition being all ones: each target word lies below 2048 as an unsigned number. The outer
    conjunction's second half is the `jnp.all` over the targets (a reduce by `and` that is 1 had a 1 at every index); at
    an index its operand is the conjunction of the two signed compares against the splat constants 0 and 2048. -/
theorem targets_lt {F : FTy → Type} [FloatOps F] (x : FVec F S32768x2048 .f32) (t : IVec S32768 32)
    (h : Cert.Pre_finite_inputs.fn (F := F) x t = fun _ => 1#1) (i : S32768.Idx) : (t i).toNat < 2048 := by
  have h0 := congrFun h ix0
  dsimp only [Cert.Pre_finite_inputs.fn] at h0
  obtain ⟨-, h9⟩ := IntOp.andi_eq_one.1 h0
  have h8 := Host.reduce_andi_all _ _ _ _ _ h9 i
  obtain ⟨h5, h7⟩ := IntOp.andi_eq_one.1 h8
  exact Cert.RowLoss.toNat_lt_of_signed h5 h7

end Cert.TargetsInRange

end
-- ==== Proof.lean ====
/-
  A multi-positive log-sum-exp loss over 32768 rows of 2048 logits: the Pallas kernel against its jnp reference, equal as
  extended reals under the precondition that the logits are finite and every target lies in [0, 2048).

  Per row, with T the row's target class, the reference computes log (N + exp x_T) − x_T, where N is the sum of the
  exponentials over the "negative set": class 0 alone when T ≠ 0, every class but 0 when T = 0; and x_T by a gather along
  the class axis. The kernel computes x_T as a one-hot masked row sum, and selects between log (∑ₖ exp xₖ) − x_T (T = 0) and
  log (exp x₀ + exp x_T) − x_T (T ≠ 0). For T in range the one-hot sum is x_T and the gather reads x_T; for T = 0 the
  negative set's sum plus exp x₀ is the whole sum, for T ≠ 0 it is exp x₀: regroupings of finite sums, valid on the extended
  reals as they stand. Both programs then take the mean the same way (the sum from the f32 zero, over the f32 word of
  32768). The specification is Proof/RowLoss.lean; the reference's side is Proof/RefRow.lean over its run read back; the
  kernel's side is Proof/KernelRow.lean (a stored row), Proof/KernelBlocks.lean (the blocks as rows of the arrays) and
  Proof/KernelArray.lean (the column after the region, and the lines after it); Proof/TargetsInRange.lean reads the range of
  the targets out of the precondition. Outside [0, 2048) the claim would be false: a target in [−2048, 0) is wrapped by the
  reference's gather and matched by no class position in the kernel.
-/
import proofs.«403057_j8761733284104_2_alg».proof.Defs
import proofs.«403057_j8761733284104_2_alg».proof.Proof.Gen.Kernel
import proofs.«403057_j8761733284104_2_alg».proof.Proof.Gen.Kernel.Skeleton
import proofs.«403057_j8761733284104_2_alg».proof.Proof.Gen.Kernel.Launch
import proofs.«403057_j8761733284104_2_alg».proof.Proof.Gen.Kernel.Points
import proofs.«403057_j8761733284104_2_alg».proof.Proof.Gen.Kernel.Frame
import proofs.«403057_j8761733284104_2_alg».proof.Proof.Gen.KernelIdeal
import proofs.«403057_j8761733284104_2_alg».proof.Proof.Gen.KernelIdeal.Skeleton
import proofs.«403057_j8761733284104_2_alg».proof.Proof.Gen.KernelIdeal.Launch
import proofs.«403057_j8761733284104_2_alg».proof.Proof.Gen.KernelIdeal.Points
import proofs.«403057_j8761733284104_2_alg».proof.Proof.Gen.KernelIdeal.Frame
import proofs.«403057_j8761733284104_2_alg».proof.Proof.Gen.ReferenceIdeal
import proofs.«403057_j8761733284104_2_alg».proof.Proof.Gen.Pre_finite_inputs
import proofs.«403057_j8761733284104_2_alg».proof.Proof.RefRun
import proofs.«403057_j8761733284104_2_alg».proof.Proof.RefRead
import proofs.«403057_j8761733284104_2_alg».proof.Proof.RefRow
import proofs.«403057_j8761733284104_2_alg».proof.Proof.KernelArray
import proofs.«403057_j8761733284104_2_alg».proof.Proof.TargetsInRange
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- The idealized kernel runs and leaves its arguments unchanged: its generated frame. -/
theorem frame_kernelIdeal : Cert.frame_KernelIdeal := fun m ρ _ => Cert.KernelIdeal.Gen.frame m ρ

/-- The reference runs and leaves its arguments unchanged: its run read back, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments, with every target in range, both programs end with their result at the mean
    of the row losses of the same logits and targets. -/
theorem algebraic : Cert.algebraic_KernelIdeal_ReferenceIdeal := by
  intro m ρ m' ρ' hpre hagree
  have hT : ∀ (c : Dev Cert.KernelIdeal.nD) (i : Cert.KernelIdeal.S32768.Idx), (Cert.KernelBlocks.targets m c i).toNat < 2048 :=
    fun c i => Cert.TargetsInRange.targets_lt _ _ (hpre c) i
  refine ⟨fun c => (fun _ => Cert.RowLoss.meanLoss (Cert.KernelBlocks.logits m c) (Cert.KernelBlocks.targets m c)),
    Cert.KernelArray.run m ρ hT, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, (hagree c).1, (hagree c).2]
  exact Cert.RefRow.ref_result _ _ (hT c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
